-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 93
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.BlockProduct.lean ====
/-
  The two matrix products of the graph convolution, one row block at a time.

  Each layer's dense product is computed by the kernel in ten row blocks of 5000 rows: the block's 5000 rows of the left
  factor times the WHOLE right factor, accumulated into a zero block, the factors first narrowed to bf16. At the ideal
  values the narrowing is the identity and the accumulation into zero is the plain sum, so entry (p, c) of block r is
    ∑ k, x[5000 r + p, k] · w[k, c],
  which is entry (5000 r + p, c) of the whole product  x · w  that the reference computes in one `dot_general`. Nothing but
  the two sums being the same sum is used: no law of the extended reals beyond 0 + s = s.
-/
import proofs.«159495_j28252294873752_1_alg».proof.Proof.Gen.KernelIdeal.Skeleton
import proofs.«159495_j28252294873752_1_alg».proof.Proof.RefRead
import Idealize.ShloMosaic.Lib.ValueIdx
import Idealize.ShloMosaic.Lib.Pipeline.Value
import Idealize.ShloMosaic.PureOps.Ideal.Laws

noncomputable section

namespace Cert.KernelIdeal.RowBlocks

open Cert.KernelIdeal Cert.KernelIdeal.Gen Idealize.ShloMosaic Idealize.ShloMosaic.TcCoe Idealize.SL.Sem

/-! ## Layer 1: a [5000, 128] row block times the [128, 256] weight -/

theorem blk1_lhs_0 (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem blk1_lhs_1 (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
theorem blk1_rhs_0 (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
theorem blk1_rhs_1 (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The left factor's entry that meets contraction index `k` at output entry `j` of a block: row `j 0`, column `k`. -/
abbrev lrow1 (j : S5000x256.Idx) (k : Fin 128) : S5000x128.Idx := fun a => match a with
  | ⟨0, _⟩ => ⟨(j 0).val, (j 0).isLt⟩
  | ⟨1, _⟩ => ⟨k.val, k.isLt⟩
/-- The right factor's: row `k`, column `j 1`. -/
abbrev rcol1 (j : S5000x256.Idx) (k : Fin 128) : S128x256.Idx := fun a => match a with
  | ⟨0, _⟩ => ⟨k.val, k.isLt⟩
  | ⟨1, _⟩ => ⟨(j 1).val, (j 1).isLt⟩

/-- The first kernel's stored block, entry by entry: the sum over the 128 contracted columns. -/
theorem block1_apply (x : FVec Ideal S5000x128 .f32) (w : FVec Ideal S128x256 .f32) (j : S5000x256.Idx) :
    k0_pay1 (F := Ideal) x w j = ∑ k : Fin 128, x (lrow1 j k) * w (rcol1 j k) := by
  show FloatOps.matmul dot_S5000x128_S128x256_S5000x256_1_0_0_1_n_n none (truncf .bf16 x bitsLt_bf16_f32) (truncf .bf16 w bitsLt_bf16_f32)
    (constant S5000x256 .f32 0x00000000#32) j = _
  refine (Ideal.matmul_constant_zero_apply dot_S5000x128_S128x256_S5000x256_1_0_0_1_n_n none _ _ j).trans ?_
  rw [← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = lrow1 j k := funext fun a => Fin.ext (by
    match a with
    | ⟨0, _⟩ => exact blk1_lhs_0 _ _
    | ⟨1, _⟩ => exact (blk1_lhs_1 _ _).trans hk)
  have er : dot_S5000x128_S128x256_S5000x256_1_0_0_1_n_n.rhsIdx j ((ValueIdx.contrEquiv1 dot_S5000x128_S128x256_S5000x256_1_0_0_1_n_n 128 rfl rfl).symm k) = rcol1 j k := funext fun a => Fin.ext (by
    match a with
    | ⟨0, _⟩ => exact (blk1_rhs_0 _ _).trans hk
    | ⟨1, _⟩ => exact blk1_rhs_1 _ _)
  rw [el, er]
  rfl

/-- ROW BLOCK `r` OF THE WHOLE FIRST PRODUCT: if `xb` is rows 5000 r … 5000 r + 4999 of `X` and `wb` is `W`, the kernel's
    block at `j` is the reference's `dot_general` of `X` and `W` at the entry `i` with `i 0 = 5000 r + j 0`, `i 1 = j 1`. -/
theorem rowBlock1 (X : FVec Ideal Cert.ReferenceIdeal.S50000x128 .f32) (W : FVec Ideal Cert.ReferenceIdeal.S128x256 .f32)
    (xb : FVec Ideal S5000x128 .f32) (wb : FVec Ideal S128x256 .f32) (r : Nat)
    (hx : ∀ (y : S5000x128.Idx) (i : Cert.ReferenceIdeal.S50000x128.Idx), (i 0).val = 5000 * r + (y 0).val → (i 1).val = (y 1).val → xb y = X i)
    (hw : ∀ (y : S128x256.Idx) (i : Cert.ReferenceIdeal.S128x256.Idx), (i 0).val = (y 0).val → (i 1).val = (y 1).val → wb y = W i)
    (j : S5000x256.Idx) (i : Cert.ReferenceIdeal.S50000x256.Idx) (h0 : (i 0).val = 5000 * r + (j 0).val) (h1 : (i 1).val = (j 1).val) :
    k0_pay1 (F := Ideal) xb wb j = Cert.ReferenceIdeal.ReadP.val_main_v30 (F := Ideal) X W i := by
  rw [Cert.ReferenceIdeal.ReadP.val_main_v30_apply]
  refine (block1_apply xb wb j).trans (Finset.sum_congr rfl fun k _ => ?_)
  rw [hx (lrow1 j k) (Cert.ReferenceIdeal.ReadP.lidx_main_v30 i k) h0 rfl,
    hw (rcol1 j k) (Cert.ReferenceIdeal.ReadP.ridx_main_v30 i k) rfl h1]

/-! ## Layer 2: a [5000, 256] row block times the [256, 128] weight -/

theorem blk2_lhs_0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blk2_lhs_1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem blk2_rhs_0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem blk2_rhs_1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row `j 0`, column `k` of the left factor. -/
abbrev lrow2 (j : S5000x128.Idx) (k : Fin 256) : S5000x256.Idx := fun a => match a with
  | ⟨0, _⟩ => ⟨(j 0).val, (j 0).isLt⟩
  | ⟨1, _⟩ => ⟨k.val, k.isLt⟩
/-- Row `k`, column `j 1` of the right factor. -/
abbrev rcol2 (j : S5000x128.Idx) (k : Fin 256) : S256x128.Idx := fun a => match a with
  | ⟨0, _⟩ => ⟨k.val, k.isLt⟩
  | ⟨1, _⟩ => ⟨(j 1).val, (j 1).isLt⟩

/-- The second kernel's stored block, entry by entry (the cast of the loaded block to its own shape is the identity). -/
theorem block2_apply (x : FVec Ideal S5000x256 .f32) (w : FVec Ideal S256x128 .f32) (j : S5000x128.Idx) :
    k1_pay1 (F := Ideal) x w j = ∑ k : Fin 256, x (lrow2 j k) * w (rcol2 j k) := by
  show FloatOps.matmul dot_S5000x256_S256x128_S5000x128_1_0_0_1_n_n none (truncf .bf16 (shapeCast S5000x256 x shapeCasts_S5000x256_S5000x256) bitsLt_bf16_f32)
    (truncf .bf16 w bitsLt_bf16_f32) (constant S5000x128 .f32 0x00000000#32) j = _
  rw [shapeCast_self]
  refine (Ideal.matmul_constant_zero_apply dot_S5000x256_S256x128_S5000x128_1_0_0_1_n_n none _ _ j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrow2 j k := funext fun a => Fin.ext (by
    match a with
    | ⟨0, _⟩ => exact blk2_lhs_0 _ _
    | ⟨1, _⟩ => exact (blk2_lhs_1 _ _).trans hk)
  have er : dot_S5000x256_S256x128_S5000x128_1_0_0_1_n_n.rhsIdx j ((ValueIdx.contrEquiv1 dot_S5000x256_S256x128_S5000x128_1_0_0_1_n_n 256 rfl rfl).symm k) = rcol2 j k := funext fun a => Fin.ext (by
    match a with
    | ⟨0, _⟩ => exact (blk2_rhs_0 _ _).trans hk
    | ⟨1, _⟩ => exact blk2_rhs_1 _ _)
  rw [el, er]
  rfl

/-- The reference's second `dot_general` of ANY left factor `Y`, entry by entry (the generated reading of it is stated
    only at the first layer's output; this is the same proof with the factor a variable). -/
theorem whole2_apply (Y : FVec Ideal Cert.ReferenceIdeal.S50000x256 .f32) (W : FVec Ideal Cert.ReferenceIdeal.S256x128 .f32)
    (j : Cert.ReferenceIdeal.S50000x128.Idx) :
    Host.dotGeneral Cert.ReferenceIdeal.dot_S50000x256_S256x128_S50000x128_1_0_0_1_n_n none Y W j
      = ∑ k : Fin 256, Y (Cert.ReferenceIdeal.ReadP.lidx_main_v48 j k) * W (Cert.ReferenceIdeal.ReadP.ridx_main_v48 j k) := by
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx j ((ValueIdx.contrEquiv1 Cert.ReferenceIdeal.dot_S50000x256_S256x128_S50000x128_1_0_0_1_n_n 256 rfl rfl).symm k) = Cert.ReferenceIdeal.ReadP.lidx_main_v48 j k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S50000x256_S256x128_S50000x128_1_0_0_1_n_n.rhsIdx j ((ValueIdx.contrEquiv1 Cert.ReferenceIdeal.dot_S50000x256_S256x128_S50000x128_1_0_0_1_n_n 256 rfl rfl).symm k) = Cert.ReferenceIdeal.ReadP.ridx_main_v48 j k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- ROW BLOCK `r` OF THE WHOLE SECOND PRODUCT, as for the first. -/
theorem rowBlock2 (Y : FVec Ideal Cert.ReferenceIdeal.S50000x256 .f32) (W : FVec Ideal Cert.ReferenceIdeal.S256x128 .f32)
    (yb : FVec Ideal S5000x256 .f32) (wb : FVec Ideal S256x128 .f32) (r : Nat)
    (hy : ∀ (y : S5000x256.Idx) (i : Cert.ReferenceIdeal.S50000x256.Idx), (i 0).val = 5000 * r + (y 0).val → (i 1).val = (y 1).val → yb y = Y i)
    (hw : ∀ (y : S256x128.Idx) (i : Cert.ReferenceIdeal.S256x128.Idx), (i 0).val = (y 0).val → (i 1).val = (y 1).val → wb y = W i)
    (j : S5000x128.Idx) (i : Cert.ReferenceIdeal.S50000x128.Idx) (h0 : (i 0).val = 5000 * r + (j 0).val) (h1 : (i 1).val = (j 1).val) :
    k1_pay1 (F := Ideal) yb wb j = Host.dotGeneral Cert.ReferenceIdeal.dot_S50000x256_S256x128_S50000x128_1_0_0_1_n_n none Y W i := by
  rw [whole2_apply]
  refine (block2_apply yb wb j).trans (Finset.sum_congr rfl fun k _ => ?_)
  rw [hy (lrow2 j k) (Cert.ReferenceIdeal.ReadP.lidx_main_v48 i k) h0 rfl,
    hw (rcol2 j k) (Cert.ReferenceIdeal.ReadP.ridx_main_v48 i k) rfl h1]

end Cert.KernelIdeal.RowBlocks

end
-- ==== Proof.RegionArrays.lean ====
/-
  What each of the two pipelined regions leaves in its output array, as ONE whole-array function of the arrays the region
  finds on entry — whatever those entry contents `V` are.

  A region runs its kernel at ten grid points. Point t fetches rows 5000 t … 5000 t + 4999 of the left factor and the whole
  right factor, stores their product into the output window's buffer, and the pipeline writes that buffer back as rows
  5000 t … 5000 t + 4999 of the output array. Row block t of the whole product IS the product of row block t with the whole
  right factor (Proof/BlockProduct.lean), the ten blocks tile the 50000 rows, and so the array ends at the whole product:
  the reference's `dot_general` of the two arrays as the region found them.
-/
import proofs.«159495_j28252294873752_1_alg».proof.Proof.Gen.KernelIdeal.Frame
import proofs.«159495_j28252294873752_1_alg».proof.Proof.BlockProduct
import Idealize.ShloMosaic.Lib.Pipeline.Value
import Idealize.ShloMosaic.Lib.ValueIdx

set_option maxRecDepth 16384

noncomputable section

namespace Cert.KernelIdeal.RegionArrays

open Cert.KernelIdeal Cert.KernelIdeal.Gen Cert.KernelIdeal.RowBlocks
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The whole-buffer rectangle's offset is zero on both axes. -/
theorem off_zero : (![0, 0] : Fin 2 → Nat) = fun _ => 0 := funext fun a => by fin_cases a <;> rfl

/-! ## Region 0: rows of `x` times `W1` -/

/-- The printed index maps over the ten points: the left factor's and the output's block row is the point's number, every
    block column is 0, and the right factor's block never moves. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the two arrays the region found. -/
theorem flushed0 (c : Dev nD) (t : Fin cfg0.N) :
    (dat0 V c).flushed 2 t = ((cfg0.win 2).blk t).view.read (Elt Ideal)
      (Cert.ReferenceIdeal.ReadP.val_main_v30 (F := Ideal) (V c main_arg0) (V c main_arg3)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x256) off_zero]
  obtain ⟨e0, e1, e2, e3, e4, e5⟩ := blocks0 t
  funext j
  refine rowBlock1 (V c main_arg0) (V c main_arg3) (iblk0 V c 0 t) (iblk0 V c 1 t) t.val ?_ ?_ j
    (((cfg0.win 2).blk t).view.emb j) ?_ ?_
  · intro y i h0 h1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y i h0 h1
    show V c main_arg3 (((cfg0.win 1).blk t).view.emb y) = V c main_arg3 i
    refine congrArg (V c main_arg3) (funext fun a => Fin.ext ?_)
    match a with
    | ⟨0, _⟩ => show win0_1.index t (0 : Fin 2) * 128 + 1 * (y 0).val = (i 0).val; omega
    | ⟨1, _⟩ => show win0_1.index t (1 : Fin 2) * 256 + 1 * (y 1).val = (i 1).val; omega
  · show win0_2.index t (0 : Fin 2) * 5000 + 1 * (j 0).val = 5000 * t.val + (j 0).val; omega
  · show win0_2.index t (1 : Fin 2) * 256 + 1 * (j 1).val = (j 1).val; omega

/-- An index of the output array is in point `t`'s block iff each coordinate is in the block's range on its axis. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Every row lies in the block of the point numbered by its quotient by 5000. -/
theorem cover0 (i : S50000x256.Idx) : ∃ t : Fin cfg0.N, (cfg0.win 2).flush t = true ∧ i ∈ ((cfg0.win 2).blk t).view.set := by
  have hi0 : (i 0).val < 50000 := ValueIdx.idx2_lt0 i
  have hi1 : (i 1).val < 256 := ValueIdx.idx2_lt1 i
  have hN : cfg0.N = 10 := N_0
  let t : Fin cfg0.N := ⟨(i 0).val / 5000, by rw [hN]; omega⟩
  have ht : t.val = (i 0).val / 5000 := rfl
  obtain ⟨e0, e1, e2, e3, e4, e5⟩ := blocks0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE FIRST REGION'S OUTPUT ARRAY after its run: the whole product of the arrays it found. -/
theorem final0 (c : Dev nD) :
    (dat0 V c).arrAt 2 cfg0.N = Cert.ReferenceIdeal.ReadP.val_main_v30 (F := Ideal) (V c main_arg0) (V c main_arg3) :=
  (dat0 V c).arrAt_eq_of_cover 2 _ (fun t _ => flushed0 V c t) cover0

/-! ## Region 1: rows of the hidden layer times `W2` -/

/-- The second call's index maps, as the first's. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole product of the hidden array and the second weight as found. -/
theorem flushed1 (c : Dev nD) (t : Fin cfg1.N) :
    (dat1 V c).flushed 2 t = ((cfg1.win 2).blk t).view.read (Elt Ideal)
      (Host.dotGeneral (F := Ideal) (φ₁ := .f32) (φ₂ := .f32) Cert.ReferenceIdeal.dot_S50000x256_S256x128_S50000x128_1_0_0_1_n_n none (V c main_v47) (V c main_arg5)) := by
  show (cfg1.win 2).cut (grid1.coords t) ((dat1 V c).after 2 t) = _
  rw [after1_2]
  unfold out1_2
  rw [View.canon_unit_zero off_zero]
  simp only [View.ld_unit_zero (S := S5000x256) off_zero, View.ld_unit_zero (S := S256x128) off_zero]
  obtain ⟨e0, e1, e2, e3, e4, e5⟩ := blocks1 t
  funext j
  refine rowBlock2 (V c main_v47) (V c main_arg5) (iblk1 V c 0 t) (iblk1 V c 1 t) t.val ?_ ?_ j
    (((cfg1.win 2).blk t).view.emb j) ?_ ?_
  · intro y i h0 h1
    show V c main_v47 (((cfg1.win 0).blk t).view.emb y) = V c main_v47 i
    refine congrArg (V c main_v47) (funext fun a => Fin.ext ?_)
    match a with
    | ⟨0, _⟩ => show win1_0.index t (0 : Fin 2) * 5000 + 1 * (y 0).val = (i 0).val; omega
    | ⟨1, _⟩ => show win1_0.index t (1 : Fin 2) * 256 + 1 * (y 1).val = (i 1).val; omega
  · intro y i h0 h1
    show V c main_arg5 (((cfg1.win 1).blk t).view.emb y) = V c main_arg5 i
    refine congrArg (V c main_arg5) (funext fun a => Fin.ext ?_)
    match a with
    | ⟨0, _⟩ => show win1_1.index t (0 : Fin 2) * 256 + 1 * (y 0).val = (i 0).val; omega
    | ⟨1, _⟩ => show win1_1.index t (1 : Fin 2) * 128 + 1 * (y 1).val = (i 1).val; omega
  · show win1_2.index t (0 : Fin 2) * 5000 + 1 * (j 0).val = 5000 * t.val + (j 0).val; omega
  · show win1_2.index t (1 : Fin 2) * 128 + 1 * (j 1).val = (j 1).val; omega

/-- An index of the second output array is in point `t`'s block iff each coordinate is in the block's range. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every row lies in the block of the point numbered by its quotient by 5000. -/
theorem cover1 (i : S50000x128.Idx) : ∃ t : Fin cfg1.N, (cfg1.win 2).flush t = true ∧ i ∈ ((cfg1.win 2).blk t).view.set := by
  have hi0 : (i 0).val < 50000 := ValueIdx.idx2_lt0 i
  have hi1 : (i 1).val < 128 := ValueIdx.idx2_lt1 i
  have hN : cfg1.N = 10 := N_1
  let t : Fin cfg1.N := ⟨(i 0).val / 5000, by rw [hN]; omega⟩
  have ht : t.val = (i 0).val / 5000 := rfl
  obtain ⟨e0, e1, e2, e3, e4, e5⟩ := blocks1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE SECOND REGION'S OUTPUT ARRAY after its run: the whole product of the arrays it found. -/
theorem final1 (c : Dev nD) :
    (dat1 V c).arrAt 2 cfg1.N
      = Host.dotGeneral (F := Ideal) (φ₁ := .f32) (φ₂ := .f32) Cert.ReferenceIdeal.dot_S50000x256_S256x128_S50000x128_1_0_0_1_n_n none (V c main_v47) (V c main_arg5) :=
  (dat1 V c).arrAt_eq_of_cover 2 _ (fun t _ => flushed1 V c t) cover1

end Cert.KernelIdeal.RegionArrays

end
-- ==== Proof.Layers.lean ====
/-
  The two layers of the graph convolution AFTER their dense products, each as one function of the product, and the reference's
  result split along them.

  With h the layer's dense product (one row per node), a layer is
     relu ( scatter_add over edges e of  h[src e] · norm e  into row dst e   +  bias ),
  where src, dst (the edge list with a self-loop appended for every node, negative indices wrapped) and
  norm e = dis[src e] · dis[dst e], dis = deg^(-1/2) where deg > 0 else 0, depend on the edge array alone. The kernel's program
  and the reference apply these same host operations to their products, so the certificate never opens them: it carries each
  layer as one function of the product (`hidden`, `output`) — spelt with the stages of the reference's own reading, so that the
  edge-only values are the reference's by construction — and proves only that the products going in are equal.
-/
import proofs.«159495_j28252294873752_1_alg».proof.Proof.RefRead

noncomputable section

namespace Cert.Gcn

open Cert.ReferenceIdeal Cert.ReferenceIdeal.ReadP Idealize.ShloMosaic Idealize.ShloMosaic.TcCoe Idealize.SL.Sem

variable {F : FTy → Type} [FloatOps F]

/-- The hidden layer from its dense product `h` [50000, 256], the edge array `e` and the bias `b`: gather the rows at the
    sources, scale each by its edge's normalisation, scatter-add them into the destinations' rows, add the bias, relu. -/
def hidden (h : (⟨S50000x256, .f32⟩ : BufTy).Contents (Elt F)) (e : (⟨S2x800000, .i32⟩ : BufTy).Contents (Elt F))
    (b : (⟨S256, .f32⟩ : BufTy).Contents (Elt F)) : (⟨S50000x256, .f32⟩ : BufTy).Contents (Elt F) :=
  maximumf
    (addf
      (Host.scatterAdd scatter_S50000x256_S850000x1_S850000x256_1_0_0_1 (val_main_v41 (F := F)) (val_main_v42 (F := F) e)
        (mulf (Host.gather gather_S50000x256_S850000x1_S850000x256_1_0_n_n_0_1_1256 h (val_main_v36 (F := F) e)) (val_main_v39 (F := F) e)))
      (val_main_v45 (F := F) b))
    (val_main_call1_v0 (F := F))

/-- The output layer from its dense product `h` [50000, 128], likewise. -/
def output (h : (⟨S50000x128, .f32⟩ : BufTy).Contents (Elt F)) (e : (⟨S2x800000, .i32⟩ : BufTy).Contents (Elt F))
    (b : (⟨S128, .f32⟩ : BufTy).Contents (Elt F)) : (⟨S50000x128, .f32⟩ : BufTy).Contents (Elt F) :=
  maximumf
    (addf
      (Host.scatterAdd scatter_S50000x128_S850000x1_S850000x128_1_0_0_1 (val_main_v59 (F := F)) (val_main_v60 (F := F) e)
        (mulf (Host.gather gather_S50000x128_S850000x1_S850000x128_1_0_n_n_0_1_1128 h (val_main_v54 (F := F) e)) (val_main_v57 (F := F) e)))
      (val_main_v63 (F := F) b))
    (val_main_call2_v0 (F := F))

/-- THE REFERENCE'S RESULT is the output layer of the product of the hidden layer of the product of the features and the
    first weight with the second weight: its stages, regrouped (every stage unfolds to this nesting). -/
theorem reference_split (x : (⟨S50000x128, .f32⟩ : BufTy).Contents (Elt F)) (e : (⟨S2x800000, .i32⟩ : BufTy).Contents (Elt F))
    (w1 : (⟨S128x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) :
    val_main_v65 (F := F) x e w1 b1 w2 b2
      = output (Host.dotGeneral dot_S50000x256_S256x128_S50000x128_1_0_0_1_n_n none (hidden (val_main_v30 (F := F) x w1) e b1) w2) e b2 := rfl

end Cert.Gcn

end
-- ==== Proof.HostChain.lean ====
/-
  The kernel program's result, walked back through @main: three stretches of host operations around two pipelined regions.

  The buffer contents at each boundary are a fold from the launch memory. Read at the buffers that matter:
   * before the first region the host computes, from the edge array alone, the source and destination lists (self-loops
     appended) and the per-edge normalisation; the features, weights and biases are untouched;
   * a region rewrites only its output array, and leaves there the whole product of its two input arrays as it found them;
   * between the regions the host applies the hidden layer to the first product; after the second, the output layer to the
     second product. Both layers read the same edge-only values, which no region and no later operation rewrites.
  So the result is  output (hidden (x · W1) · W2)  of the launch memory — the reference's own nesting.
  The host stretches are generic in the float instance; the two products are read at the ideal values.
-/
import proofs.«159495_j28252294873752_1_alg».proof.Proof.Gen.KernelIdeal.Frame
import proofs.«159495_j28252294873752_1_alg».proof.Proof.RegionArrays
import proofs.«159495_j28252294873752_1_alg».proof.Proof.Layers
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v29 val_main_v30)

/-! ## The host stretches, at any float instance -/

section AnyInstance

variable {F : FTy → Type} [FloatOps F]
variable (m : (ℓ : Loc nD τ sig) → Buf (Elt F) ℓ) (ρ : Dev nD → PrngReg)

/-! ### Up to the first region's entry -/

/-- The source list (edge sources, then every node) at the first region's entry. -/
theorem entry0_src (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl
/-- The destination list. -/
theorem entry0_dst (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp
  rfl
/-- The per-edge normalisation. -/
theorem entry0_norm (c : Dev nD) : W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  dsimp only [hostOps0, hostOps0_1, hostOps0_2]
  after_results_simp
  rfl
/-- The features, weights and biases are as launched. -/
theorem entry0_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp
theorem entry0_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp
theorem entry0_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp
theorem entry0_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp
theorem entry0_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0, hostOps0_1, hostOps0_2]
  after_results_simp

/-! ### Across the first region: only its output array changes -/

theorem exit0_src (c : Dev nD) : W4 m ρ c (Proc.devRef .tc main_v3) = val_main_v3 (F := F) (m ((c : Thread nD τ).loc main_arg1)) :=
  (W4_of_ne m ρ c main_v3 (by decide)).trans (entry0_src m ρ c)
theorem exit0_dst (c : Dev nD) : W4 m ρ c (Proc.devRef .tc main_v6) = val_main_v6 (F := F) (m ((c : Thread nD τ).loc main_arg1)) :=
  (W4_of_ne m ρ c main_v6 (by decide)).trans (entry0_dst m ρ c)
theorem exit0_norm (c : Dev nD) : W4 m ρ c (Proc.devRef .tc main_v29) = val_main_v29 (F := F) (m ((c : Thread nD τ).loc main_arg1)) :=
  (W4_of_ne m ρ c main_v29 (by decide)).trans (entry0_norm m ρ c)
theorem exit0_arg4 (c : Dev nD) : W4 m ρ c (Proc.devRef .tc main_arg4) = m ((c : Thread nD τ).loc main_arg4) :=
  (W4_of_ne m ρ c main_arg4 (by decide)).trans (entry0_arg4 m ρ c)
theorem exit0_arg5 (c : Dev nD) : W4 m ρ c (Proc.devRef .tc main_arg5) = m ((c : Thread nD τ).loc main_arg5) :=
  (W4_of_ne m ρ c main_arg5 (by decide)).trans (entry0_arg5 m ρ c)
theorem exit0_arg6 (c : Dev nD) : W4 m ρ c (Proc.devRef .tc main_arg6) = m ((c : Thread nD τ).loc main_arg6) :=
  (W4_of_ne m ρ c main_arg6 (by decide)).trans (entry0_arg6 m ρ c)

/-! ### Between the regions: the hidden layer of the first region's output -/

/-- The second region's left input is the hidden layer of what the first region left in its output array. -/
theorem entry1_hidden (c : Dev nD) :
    W6 m ρ c (Proc.devRef .tc main_v47)
      = Cert.Gcn.hidden (F := F) (W4 m ρ c (Proc.devRef .tc main_v30)) (m ((c : Thread nD τ).loc main_arg1)) (m ((c : Thread nD τ).loc main_arg4)) := by
  show StableHlo.after hostOps1_1 (StableHlo.after hostOps1 (W4 m ρ c)) (Proc.devRef .tc main_v47) = _
  dsimp only [hostOps1, hostOps1_1]
  after_results_simp
  rw [exit0_src, exit0_dst, exit0_norm, exit0_arg4]
  rfl

theorem entry1_src (c : Dev nD) : W6 m ρ c (Proc.devRef .tc main_v3) = val_main_v3 (F := F) (m ((c : Thread nD τ).loc main_arg1)) := by
  refine Eq.trans ?_ (exit0_src m ρ c)
  show StableHlo.after hostOps1_1 (StableHlo.after hostOps1 (W4 m ρ c)) (Proc.devRef .tc main_v3) = _
  dsimp only [hostOps1, hostOps1_1]
  after_results_simp
theorem entry1_dst (c : Dev nD) : W6 m ρ c (Proc.devRef .tc main_v6) = val_main_v6 (F := F) (m ((c : Thread nD τ).loc main_arg1)) := by
  refine Eq.trans ?_ (exit0_dst m ρ c)
  show StableHlo.after hostOps1_1 (StableHlo.after hostOps1 (W4 m ρ c)) (Proc.devRef .tc main_v6) = _
  dsimp only [hostOps1, hostOps1_1]
  after_results_simp
theorem entry1_norm (c : Dev nD) : W6 m ρ c (Proc.devRef .tc main_v29) = val_main_v29 (F := F) (m ((c : Thread nD τ).loc main_arg1)) := by
  refine Eq.trans ?_ (exit0_norm m ρ c)
  show StableHlo.after hostOps1_1 (StableHlo.after hostOps1 (W4 m ρ c)) (Proc.devRef .tc main_v29) = _
  dsimp only [hostOps1, hostOps1_1]
  after_results_simp
theorem entry1_arg5 (c : Dev nD) : W6 m ρ c (Proc.devRef .tc main_arg5) = m ((c : Thread nD τ).loc main_arg5) := by
  refine Eq.trans ?_ (exit0_arg5 m ρ c)
  show StableHlo.after hostOps1_1 (StableHlo.after hostOps1 (W4 m ρ c)) (Proc.devRef .tc main_arg5) = _
  dsimp only [hostOps1, hostOps1_1]
  after_results_simp
theorem entry1_arg6 (c : Dev nD) : W6 m ρ c (Proc.devRef .tc main_arg6) = m ((c : Thread nD τ).loc main_arg6) := by
  refine Eq.trans ?_ (exit0_arg6 m ρ c)
  show StableHlo.after hostOps1_1 (StableHlo.after hostOps1 (W4 m ρ c)) (Proc.devRef .tc main_arg6) = _
  dsimp only [hostOps1, hostOps1_1]
  after_results_simp

/-! ### Across the second region -/

theorem exit1_src (c : Dev nD) : W7 m ρ c (Proc.devRef .tc main_v3) = val_main_v3 (F := F) (m ((c : Thread nD τ).loc main_arg1)) :=
  (W7_of_ne m ρ c main_v3 (by decide)).trans (entry1_src m ρ c)
theorem exit1_dst (c : Dev nD) : W7 m ρ c (Proc.devRef .tc main_v6) = val_main_v6 (F := F) (m ((c : Thread nD τ).loc main_arg1)) :=
  (W7_of_ne m ρ c main_v6 (by decide)).trans (entry1_dst m ρ c)
theorem exit1_norm (c : Dev nD) : W7 m ρ c (Proc.devRef .tc main_v29) = val_main_v29 (F := F) (m ((c : Thread nD τ).loc main_arg1)) :=
  (W7_of_ne m ρ c main_v29 (by decide)).trans (entry1_norm m ρ c)
theorem exit1_arg6 (c : Dev nD) : W7 m ρ c (Proc.devRef .tc main_arg6) = m ((c : Thread nD τ).loc main_arg6) :=
  (W7_of_ne m ρ c main_arg6 (by decide)).trans (entry1_arg6 m ρ c)

/-! ### After the second region: the output layer of its output -/

/-- The program's result is the output layer of what the second region left in its output array. -/
theorem result_output (c : Dev nD) :
    W9 m ρ c (Proc.devRef .tc main_v65)
      = Cert.Gcn.output (F := F) (W7 m ρ c (Proc.devRef .tc main_v48)) (m ((c : Thread nD τ).loc main_arg1)) (m ((c : Thread nD τ).loc main_arg6)) := by
  show StableHlo.after hostOps2_1 (StableHlo.after hostOps2 (W7 m ρ c)) (Proc.devRef .tc main_v65) = _
  dsimp only [hostOps2, hostOps2_1]
  after_results_simp
  rw [exit1_src, exit1_dst, exit1_norm, exit1_arg6]
  rfl

end AnyInstance

/-! ## The two products, at the ideal values -/

section AtIdeal

variable (m : (ℓ : Loc nD τ sig) → Buf (Elt Ideal) ℓ) (ρ : Dev nD → PrngReg)

/-- The first region leaves the product of the features and the first weight, as launched. -/
theorem exit0_product (c : Dev nD) :
    W4 m ρ c (Proc.devRef .tc main_v30)
      = val_main_v30 (F := Ideal) (m ((c : Thread nD τ).loc main_arg0)) (m ((c : Thread nD τ).loc main_arg3)) := by
  refine (W4_arr m ρ c 2).trans ((Cert.KernelIdeal.RegionArrays.final0 (V3 m ρ) c).trans ?_)
  rw [show V3 m ρ c main_arg0 = m ((c : Thread nD τ).loc main_arg0) from entry0_arg0 m ρ c,
    show V3 m ρ c main_arg3 = m ((c : Thread nD τ).loc main_arg3) from entry0_arg3 m ρ c]

/-- The second region leaves the product of the hidden layer and the second weight. -/
theorem exit1_product (c : Dev nD) :
    W7 m ρ c (Proc.devRef .tc main_v48)
      = Host.dotGeneral (F := Ideal) (φ₁ := .f32) (φ₂ := .f32) Cert.ReferenceIdeal.dot_S50000x256_S256x128_S50000x128_1_0_0_1_n_n none
          (Cert.Gcn.hidden (F := Ideal) (val_main_v30 (F := Ideal) (m ((c : Thread nD τ).loc main_arg0)) (m ((c : Thread nD τ).loc main_arg3)))
            (m ((c : Thread nD τ).loc main_arg1)) (m ((c : Thread nD τ).loc main_arg4)))
          (m ((c : Thread nD τ).loc main_arg5)) := by
  refine (W7_arr m ρ c 2).trans ((Cert.KernelIdeal.RegionArrays.final1 (V6 m ρ) c).trans ?_)
  rw [show V6 m ρ c main_v47 = _ from entry1_hidden m ρ c, exit0_product,
    show V6 m ρ c main_arg5 = m ((c : Thread nD τ).loc main_arg5) from entry1_arg5 m ρ c]

/-- THE KERNEL PROGRAM'S RESULT: the reference's function of the launch memory. -/
theorem result_eq (c : Dev nD) :
    W9 m ρ c (Proc.devRef .tc main_v65)
      = Cert.ReferenceIdeal.ReadP.val_main_v65 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) := by
  rw [Cert.Gcn.reference_split, result_output, exit1_product]

end AtIdeal

end Cert.KernelIdeal.HostChain

end
-- ==== Proof.lean ====
/-
  A two-layer graph convolution: the kernel's program against its jnp reference, equal as extended reals.

  Both programs compute, from node features x [50000, 128], an edge array [2, 800000] and two weight / bias pairs,
      relu( A (relu( A (x · W1) + b1 ) · W2) + b2 ),
  where A scatter-adds, over the edges with a self-loop per node, the source row scaled by deg^(-1/2)[src] · deg^(-1/2)[dst]
  into the destination row. They spell every host operation alike; they differ only in the two dense products: the reference
  takes each in one `dot_general`, the kernel's program in a pipelined matrix-unit kernel over ten blocks of 5000 rows whose
  operands it first narrows to bf16 and whose sum it accumulates into zero. At the ideal values narrowing is the identity and
  0 + s = s, so a block of the kernel's product is the same sum over the contracted axis as the reference's entry
  (Proof/BlockProduct.lean); the ten blocks tile the rows, so each region leaves the whole product (Proof/RegionArrays.lean);
  and the shared host operations, carried as two unopened functions of the products (Proof/Layers.lean), give both programs
  the same result (Proof/HostChain.lean). No property of the inputs is used: the precondition is never opened, and the sums are
  compared term by term, not rearranged.

  The frames of the two kernel programs are the generated ones; the kernel program's run with its result named
  (Proof/KernelRun.lean) and the reference's run (Proof/RefRun.lean, read by Proof/RefRead.lean) are copies of generated text.
  The ideal pass rewrote nothing, so `preserves` is `True`.
-/
import proofs.«159495_j28252294873752_1_alg».proof.Defs
import proofs.«159495_j28252294873752_1_alg».proof.Proof.Gen.Kernel
import proofs.«159495_j28252294873752_1_alg».proof.Proof.Gen.Kernel.Frame
import proofs.«159495_j28252294873752_1_alg».proof.Proof.Gen.KernelIdeal
import proofs.«159495_j28252294873752_1_alg».proof.Proof.Gen.KernelIdeal.Frame
import proofs.«159495_j28252294873752_1_alg».proof.Proof.Gen.ReferenceIdeal
import proofs.«159495_j28252294873752_1_alg».proof.Proof.Gen.Pre_finite_inputs
import proofs.«159495_j28252294873752_1_alg».proof.Proof.KernelRun
import proofs.«159495_j28252294873752_1_alg».proof.Proof.RefRun
import proofs.«159495_j28252294873752_1_alg».proof.Proof.RefRead
import proofs.«159495_j28252294873752_1_alg».proof.Proof.HostChain
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the reference's function of the arguments in the result
    array: the kernel program by its run and the walk through @main, the reference by its run read stage by stage. -/
theorem algebraic : Cert.algebraic_KernelIdeal_ReferenceIdeal := by
  intro m ρ m' ρ' _ hagree
  refine ⟨fun c => Cert.ReferenceIdeal.ReadP.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostChain.result_eq m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
